-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S8x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S1x1x4096, .f32⟩
  | .hbm, ⟨5, _⟩ => ⟨S8x2048x4096, .f32⟩
  | .hbm, ⟨6, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.DotSplit.lean ====
/-
  The contraction of one output entry, taken a stretch of positions at a time.

  For a row `r` of the left array X [16384, 4096] and a row `o` of the right array W [4096, 4096] the entry is
  the sum over the 4096 positions `d` of X[r, d] · W[o, d].  A sum over `range n` of the products at positions
  `d` (read modulo the extent, so that the summand is a total function of a natural) splits at any point
  (`Finset.sum_range_add`): adding the products of the 1024 positions from `1024 k` on to the sum over the first
  `1024 k` positions gives the sum over the first `1024 (k + 1)`; four such steps from the empty sum reach the whole
  contraction.  Only commutativity and associativity of + on the extended reals are used, so nothing here asks the
  entries to be finite.
-/
import Idealize.ShloMosaic.Lib.ValueIdx
import Idealize.ShloMosaic.PureOps.Ideal.Laws
import Mathlib.Algebra.BigOperators.Fin

noncomputable section

namespace Cert.Lin

open Idealize.ShloMosaic Idealize.ShloMosaic.ValueIdx

/-- Position `d` on the contracted axis (extent 4096), taken modulo the extent. -/
def col (d : ℕ) : Fin 4096 := ⟨d % 4096, Nat.mod_lt _ (by decide)⟩

theorem col_of_lt (d : ℕ) (h : d < 4096) : col d = ⟨d, h⟩ := Fin.ext (Nat.mod_eq_of_lt h)

section
variable (X : (⟨2, ![16384, 4096]⟩ : Shape).Idx → EReal) (W : (⟨2, ![4096, 4096]⟩ : Shape).Idx → EReal)
variable (r : Fin 16384) (o : Fin 4096)

/-- The product the contraction adds at position `d`. -/
def term (d : ℕ) : EReal := X (ix2 r (col d)) * W (ix2 o (col d))

/-- The contraction over the first `n` positions. -/
def pdot (n : ℕ) : EReal := ∑ d ∈ Finset.range n, term X W r o d

theorem pdot_zero : pdot X W r o 0 = 0 := Finset.sum_range_zero _

/-- The contraction over all 4096 positions is the sum over the axis's coordinates. -/
theorem pdot_full : pdot X W r o 4096 = ∑ d : Fin 4096, X (ix2 r d) * W (ix2 o d) := by
  unfold pdot
  rw [← Fin.sum_univ_eq_sum_range (fun d => term X W r o d) 4096]
  refine Finset.sum_congr rfl fun d _ => ?_
  unfold term
  rw [col_of_lt d.val d.isLt]

/-- ONE STEP: a value `a` that is the contraction over the first `1024 k` positions, plus the products of a pair of
    [1024, 1024] blocks whose rows `p` and `q` hold X's row `r` and W's row `o` at the positions from `1024 k` on,
    is the contraction over the first `1024 (k + 1)` positions. -/
theorem pdot_step (k : ℕ) (hk : k < 4) (a : EReal) (ha : a = pdot X W r o (1024 * k))
    (xb wb : (⟨2, ![1024, 1024]⟩ : Shape).Idx → EReal) (p q : Fin 1024)
    (hx : ∀ l : Fin 1024, xb (ix2 p l) = X (ix2 r ⟨1024 * k + l.val, by have := l.isLt; omega⟩))
    (hw : ∀ l : Fin 1024, wb (ix2 q l) = W (ix2 o ⟨1024 * k + l.val, by have := l.isLt; omega⟩)) :
    a + ∑ l : Fin 1024, xb (ix2 p l) * wb (ix2 q l) = pdot X W r o (1024 * (k + 1)) := by
  have e : pdot X W r o (1024 * (k + 1))
      = pdot X W r o (1024 * k) + ∑ l ∈ Finset.range 1024, term X W r o (1024 * k + l) := by
    unfold pdot
    rw [Nat.mul_succ]
    exact Finset.sum_range_add _ _ _
  rw [e, ha]
  congr 1
  rw [← Fin.sum_univ_eq_sum_range (fun l => term X W r o (1024 * k + l)) 1024]
  refine Finset.sum_congr rfl fun l _ => ?_
  rw [hx l, hw l]
  unfold term
  rw [col_of_lt (1024 * k + l.val) (by have := l.isLt; omega)]

end

/-- THE RESULT both programs compute, entry by entry: for batch `b`, row `s` and output feature `o`, the sum over
    the 4096 input features `d` of x[b, s, d] · w[o, d], plus bias[o]. -/
def lin (x : (⟨3, ![8, 2048, 4096]⟩ : Shape).Idx → EReal) (w : (⟨2, ![4096, 4096]⟩ : Shape).Idx → EReal)
    (bias : (⟨1, ![4096]⟩ : Shape).Idx → EReal) : (⟨3, ![8, 2048, 4096]⟩ : Shape).Idx → EReal :=
  fun i => (∑ d : Fin 4096, x (ix3 (i 0) (i 1) d) * w (ix2 (i 2) d)) + bias (ix1 (i 2))

/-- The same result before the last reshape, as the kernel's [16384, 4096] output holds it: over the flattened rows
    `r` = 2048 b + s of X [16384, 4096] and the bias laid as one row Bv [1, 4096]. -/
def lin2 (X : (⟨2, ![16384, 4096]⟩ : Shape).Idx → EReal) (W : (⟨2, ![4096, 4096]⟩ : Shape).Idx → EReal)
    (Bv : (⟨2, ![1, 4096]⟩ : Shape).Idx → EReal) : (⟨2, ![16384, 4096]⟩ : Shape).Idx → EReal :=
  fun i => (∑ d : Fin 4096, X (ix2 (i 0) d) * W (ix2 (i 1) d)) + Bv (ix2 (0 : Fin 1) (i 1))

end Cert.Lin

end
-- ==== Proof.RefSide.lean ====
/-
  The reference at an index.  Its einsum "bsd,od->bso" is one dot_general that contracts the last axis of x with
  the last axis of the weight; read at (b, s, o) on the extended reals it is the sum over d of x[b, s, d] · w[o, d].
  The bias is broadcast along the two leading axes, so at (b, s, o) it is bias[o].  Their sum is the entry of
  `Cert.Lin.lin`.
-/
import proofs.«134308_j13597866459293_1_alg».proof.Defs
import proofs.«134308_j13597866459293_1_alg».proof.Proof.Gen.ReferenceIdeal.Read
import proofs.«134308_j13597866459293_1_alg».proof.Proof.DotSplit

noncomputable section

namespace Cert.ReferenceIdeal.Lin

open Cert.ReferenceIdeal Cert.ReferenceIdeal.Gen Cert.ReferenceIdeal.Read Idealize.ShloMosaic Idealize.ShloMosaic.ValueIdx

/-- The reference's result term, at the extended reals, is `lin` of its three arguments. -/
theorem result_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = Cert.Lin.lin x0 x1 x2 := by
  funext i
  have e0 : ∀ k : Fin 4096, lidx_main_v0 i k = ix3 (i 0) (i 1) k := fun k => funext fun a => Fin.ext (by
    match a with | ⟨0, _⟩ => rfl | ⟨1, _⟩ => rfl | ⟨2, _⟩ => rfl)
  have e1 : ∀ k : Fin 4096, ridx_main_v0 i k = ix2 (i 2) k := fun k => funext fun a => Fin.ext (by
    match a with | ⟨0, _⟩ => rfl | ⟨1, _⟩ => rfl)
  have e2 : idx_main_v1 (idx_main_v2 i) = ix1 (i 2) := funext fun a => Fin.ext (by
    match a with | ⟨0, _⟩ => rfl)
  rw [val_main_v3_apply, val_main_v0_apply, val_main_v2_apply, val_main_v1_apply]
  simp only [e0, e1, e2]
  rfl

end Cert.ReferenceIdeal.Lin

end
-- ==== Proof.Pieces.lean ====
/-
  What one grid point leaves behind.  The grid is (i, j, k) = (16, 4, 4) in row-major order, k fastest; the kernel
  keeps a [1024, 1024] accumulator across the four k-points of each (i, j).  Reading back the stores of each of the
  three control cases:
    k = 0      the accumulator is cleared, then takes  acc + xblock · wblockᵀ  over the cleared contents;
    k = 1, 2   it takes the same step over what the point before left;
    k = 3      the same step again, and the output block is the new accumulator plus the bias row.
  The step is the body's second stored value (the block product into a zero splat, added to the accumulator read
  before it), the cleared contents its first (the zero block), the output its third.
-/
import proofs.«134308_j13597866459293_1_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem Idealize.ShloMosaic.Tactic
namespace Cert.KernelIdeal.Lin
open Cert.KernelIdeal Cert.KernelIdeal.Gen
variable {F : FTy → Type} [FloatOps F]

theorem hz : (![0, 0] : Fin 2 → Nat) = fun _ => 0 := funext fun a => by fin_cases a <;> rfl

/-- At a point that opens a run of four (k = 0) the accumulator is first cleared and then takes the point's block
    product: it ends at the step applied to the zero block. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- At a point inside a run (k = 1, 2) the accumulator takes the step over what the point before left. -/
theorem acc_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- At the point that closes a run (k = 3) the accumulator takes the same step, -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output block is that accumulator with the bias row added to every row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz, View.readCov_unit_zero (S := S1024x1024) _ hz]

end Cert.KernelIdeal.Lin
end
-- ==== Proof.Payloads.lean ====
/-
  The body's three stored values read at an entry, on the extended reals.
    the cleared accumulator   0
    the step                  acc[p, q] + Σ_l xblock[p, l] · wblock[q, l]     (l over the block's 1024 positions)
    the output block          acc[p, q] + biasrow[0, q]
  The narrowing of both blocks before the product is the identity there, and the product is accumulated into a zero
  splat, so it is the plain sum of products.
-/
import proofs.«134308_j13597866459293_1_alg».proof.Proof.Gen.KernelIdeal.Skeleton
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx
namespace Cert.KernelIdeal.Lin
open Cert.KernelIdeal Cert.KernelIdeal.Gen

/-! The block product's operand indices: output entry (p, q) at contraction position l reads the left block at
    (p, l) and the right block at (q, l) (both blocks are contracted along their second axis). -/

theorem lhs_axis0 (i : S1024x1024.Idx) (u : dot_S1024x1024_S1024x1024_S1024x1024_1_1_0_0_n_n.contr.Idx) : (dot_S1024x1024_S1024x1024_S1024x1024_1_1_0_0_n_n.lhsIdx i u 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (u : dot_S1024x1024_S1024x1024_S1024x1024_1_1_0_0_n_n.contr.Idx) : (dot_S1024x1024_S1024x1024_S1024x1024_1_1_0_0_n_n.lhsIdx i u 1).val = (u ⟨0, by decide⟩).val :=
  dot_S1024x1024_S1024x1024_S1024x1024_1_1_0_0_n_n.lhsIdx_val_of_single rfl i u
theorem rhs_axis0 (i : S1024x1024.Idx) (u : dot_S1024x1024_S1024x1024_S1024x1024_1_1_0_0_n_n.contr.Idx) : (dot_S1024x1024_S1024x1024_S1024x1024_1_1_0_0_n_n.rhsIdx i u 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (u : dot_S1024x1024_S1024x1024_S1024x1024_1_1_0_0_n_n.contr.Idx) : (dot_S1024x1024_S1024x1024_S1024x1024_1_1_0_0_n_n.rhsIdx i u 1).val = (u ⟨0, by decide⟩).val :=
  dot_S1024x1024_S1024x1024_S1024x1024_1_1_0_0_n_n.rhsIdx_val_of_single rfl i u

/-- THE STEP at an entry: the accumulator's entry plus the sum over the block's 1024 contraction positions of the
    products of the two blocks' rows (the change of format before the product is the identity on the extended reals,
    and the product is taken into a zero splat). -/
theorem step_apply (xb wb acc : Vec Ideal S1024x1024 .f32) (p q : Fin 1024) :
    k0_pay2 (F := Ideal) xb wb acc (ix2 p q) = acc (ix2 p q) + ∑ l : Fin 1024, xb (ix2 p l) * wb (ix2 q l) := by
  unfold k0_pay2
  simp only [shapeCast_self]
  rw [addf_apply]
  simp only [matmul]
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun l _ => ?_)
  have hl := contrEquiv1_symm_val dot_S1024x1024_S1024x1024_S1024x1024_1_1_0_0_n_n 1024 rfl rfl l
  have el : dot_S1024x1024_S1024x1024_S1024x1024_1_1_0_0_n_n.lhsIdx (ix2 p q) ((contrEquiv1 dot_S1024x1024_S1024x1024_S1024x1024_1_1_0_0_n_n 1024 rfl rfl).symm l) = ix2 p l := funext fun a => Fin.ext (by
    match a with
    | ⟨0, _⟩ => exact lhs_axis0 _ _
    | ⟨1, _⟩ => exact (lhs_axis1 _ _).trans hl)
  have er : dot_S1024x1024_S1024x1024_S1024x1024_1_1_0_0_n_n.rhsIdx (ix2 p q) ((contrEquiv1 dot_S1024x1024_S1024x1024_S1024x1024_1_1_0_0_n_n 1024 rfl rfl).symm l) = ix2 q l := funext fun a => Fin.ext (by
    match a with
    | ⟨0, _⟩ => exact rhs_axis0 _ _
    | ⟨1, _⟩ => exact (rhs_axis1 _ _).trans hl)
  rw [el, er]
  rfl

/-- The cleared accumulator is zero at every entry. -/
theorem cleared_apply (j : S1024x1024.Idx) : k0_pay1 (F := Ideal) j = 0 := by
  unfold k0_pay1
  simp only [shapeCast_self]
  show Ideal.ofBits .f32 0x00000000#32 = 0
  exact Ideal.ofBits_zero_f32

/-- The output block at an entry: the accumulator's entry plus the bias row's entry of that column. -/
theorem out_apply (brow : Vec Ideal S1x1024 .f32) (acc : Vec Ideal S1024x1024 .f32) (p q : Fin 1024) :
    k0_pay3 (F := Ideal) brow acc (ix2 p q) = acc (ix2 p q) + brow (ix2 (0 : Fin 1) q) := by
  unfold k0_pay3
  simp only [shapeCast_self]
  rw [addf_apply]
  refine congrArg (acc (ix2 p q) + ·) ?_
  exact broadcastTo_apply brow broadcasts_S1x1024_S1024x1024 (ix2 p q) (ix2 (0 : Fin 1) q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])

end Cert.KernelIdeal.Lin
end
-- ==== Proof.Accum.lean ====
/-
  The accumulation.  Grid point t = 16 i + 4 j + k reads X's block (i, k), W's block (j, k) and the bias row's block
  (0, j), and owns output block (i, j).  After point t the carried accumulator's entry (p, q) is the contraction of
  X's row 1024 i + p with W's row 1024 j + q over the first 1024 (k + 1) positions: the point with k = 0 starts from
  zero, each later point adds its stretch of 1024 positions to what the point before left (same i and j, k one
  less).  At k = 3 all 4096 positions are in, and the output block is that contraction plus the bias at the column.
-/
import proofs.«134308_j13597866459293_1_alg».proof.Proof.DotSplit
import proofs.«134308_j13597866459293_1_alg».proof.Proof.Pieces
import proofs.«134308_j13597866459293_1_alg».proof.Proof.Payloads
import Idealize.ShloMosaic.Lib.Pipeline.Value
import Idealize.ShloMosaic.Lib.ValueIdx

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Lin
open Cert.KernelIdeal Cert.KernelIdeal.Gen

variable (m : (ℓ : Loc nD τ sig) → Buf (Elt Ideal) ℓ)

/-- The three arrays the region reads, as it finds them: X [16384, 4096], W [4096, 4096] and the bias row [1, 4096]. -/
abbrev xarr (c : Dev nD) : Vec Ideal S16384x4096 .f32 := V m c main_v0
abbrev warr (c : Dev nD) : Vec Ideal S4096x4096 .f32 := V m c main_arg1
abbrev barr (c : Dev nD) : Vec Ideal S1x4096 .f32 := V m c main_v1
/-- Their blocks at grid point `t`. -/
abbrev xblk (c : Dev nD) (t : Fin cfg0.N) : Vec Ideal S1024x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- Point `t` = 16 i + 4 j + k of the grid: X's block is (i, k), W's (j, k), the bias row's (0, j), the output's (i, j). -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- X's block at `t` holds rows 1024 i … and columns 1024 k … of X. -/
theorem xblk_apply (c : Dev nD) (t : Fin cfg0.N) (p l : Fin 1024) (r : Fin 16384) (d : Fin 4096)
    (hr : r.val = 1024 * (t.val / 16) + p.val) (hd : d.val = 1024 * (t.val % 4) + l.val) :
    xblk m c t (ix2 p l) = xarr m c (ix2 r d) := by
  obtain ⟨e0, e1, -⟩ := idx_facts t
  show V m c main_v0 (((cfg0.win 0).blk t).view.emb (ix2 p l)) = V m c main_v0 (ix2 r d)
  refine congrArg (V m c main_v0) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * l.val = d.val; rw [e1, hd]; omega

/-- W's block at `t` holds rows 1024 j … and columns 1024 k … of W. -/
theorem wblk_apply (c : Dev nD) (t : Fin cfg0.N) (q l : Fin 1024) (o : Fin 4096) (d : Fin 4096)
    (ho : o.val = 1024 * (t.val / 4 % 4) + q.val) (hd : d.val = 1024 * (t.val % 4) + l.val) :
    wblk m c t (ix2 q l) = warr m c (ix2 o d) := by
  obtain ⟨-, -, e2, e3, -⟩ := idx_facts t
  show V m c main_arg1 (((cfg0.win 1).blk t).view.emb (ix2 q l)) = V m c main_arg1 (ix2 o d)
  refine congrArg (V m c main_arg1) (funext fun a => Fin.ext ?_)
  match a with
  | ⟨0, _⟩ => show win0_1.index t (0 : Fin 2) * 1024 + 1 * q.val = o.val; rw [e2, ho]; omega
  | ⟨1, _⟩ => show win0_1.index t (1 : Fin 2) * 1024 + 1 * l.val = d.val; rw [e3, hd]; omega

/-- The bias row's block at `t` holds columns 1024 j … of the row. -/
theorem bblk_apply (c : Dev nD) (t : Fin cfg0.N) (q : Fin 1024) (o : Fin 4096)
    (ho : o.val = 1024 * (t.val / 4 % 4) + q.val) :
    bblk m c t (ix2 (0 : Fin 1) q) = barr m c (ix2 (0 : Fin 1) o) := by
  obtain ⟨-, -, -, -, e4, e5, -⟩ := idx_facts t
  show V m c main_v1 (((cfg0.win 2).blk t).view.emb (ix2 (0 : Fin 1) q)) = V m c main_v1 (ix2 (0 : Fin 1) o)
  refine congrArg (V m c main_v1) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = o.val; rw [e5, ho]; omega

/-! ## What the accumulator holds after each point -/

/-- A point with k = 0 leaves the step over the cleared accumulator; -/
theorem acc_open (c : Dev nD) (t : Fin cfg0.N) (h0 : t.val % 4 = 0) (h1 : ¬t.val % 4 = 3) :
    (outsAt0 m c t.val t.isLt).2 = k0_pay2 (xblk m c t) (wblk m c t) (k0_pay1 (F := Ideal)) := by
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (xblk m c t) (wblk m c t) (bblk m c t)

/-- a point with k = 1, 2 the step over what the point before left; -/
theorem acc_inner (c : Dev nD) (t : Fin cfg0.N) (h0 : ¬t.val % 4 = 0) (h1 : ¬t.val % 4 = 3) :
    (outsAt0 m c t.val t.isLt).2
      = k0_pay2 (xblk m c t) (wblk m c t) (outsAt0 m c (t.val - 1) (Nat.lt_of_le_of_lt (Nat.sub_le _ _) t.isLt)).2 := by
  rw [outsAt0_B m c t h0 h1]
  dsimp only
  exact acc_mid (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) (fun h => h1 ((hcond0_1 t).mp h)) (xblk m c t) (wblk m c t) (bblk m c t)
    (outsAt0 m c (t.val - 1) (Nat.lt_of_le_of_lt (Nat.sub_le _ _) t.isLt)).2

/-- a point with k = 3 likewise, -/
theorem acc_close (c : Dev nD) (t : Fin cfg0.N) (h0 : ¬t.val % 4 = 0) (h1 : t.val % 4 = 3) :
    (outsAt0 m c t.val t.isLt).2
      = k0_pay2 (xblk m c t) (wblk m c t) (outsAt0 m c (t.val - 1) (Nat.lt_of_le_of_lt (Nat.sub_le _ _) t.isLt)).2 := by
  rw [outsAt0_C m c t h0 h1]
  dsimp only
  exact acc_last (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (xblk m c t) (wblk m c t) (bblk m c t)
    (outsAt0 m c (t.val - 1) (Nat.lt_of_le_of_lt (Nat.sub_le _ _) t.isLt)).2

/-- and its output block is that accumulator plus the bias row. -/
theorem out_close (c : Dev nD) (t : Fin cfg0.N) (h0 : ¬t.val % 4 = 0) (h1 : t.val % 4 = 3) :
    (outsAt0 m c t.val t.isLt).1
      = k0_pay3 (bblk m c t) (k0_pay2 (xblk m c t) (wblk m c t) (outsAt0 m c (t.val - 1) (Nat.lt_of_le_of_lt (Nat.sub_le _ _) t.isLt)).2) := by
  rw [outsAt0_C m c t h0 h1]
  dsimp only
  exact out_last (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (xblk m c t) (wblk m c t) (bblk m c t)
    (outsAt0 m c (t.val - 1) (Nat.lt_of_le_of_lt (Nat.sub_le _ _) t.isLt)).2

/-- The step at point `t`, at entry (p, q) of the block, over an accumulator that holds the contraction of X's row
    `r` = 1024 i + p with W's row `o` = 1024 j + q over the first 1024 k positions: the contraction over the first
    1024 (k + 1). -/
theorem step_at (c : Dev nD) (t : Fin cfg0.N) (acc : Vec Ideal S1024x1024 .f32) (p q : Fin 1024) (r : Fin 16384) (o : Fin 4096)
    (hr : r.val = 1024 * (t.val / 16) + p.val) (ho : o.val = 1024 * (t.val / 4 % 4) + q.val)
    (hacc : acc (ix2 p q) = Cert.Lin.pdot (xarr m c) (warr m c) r o (1024 * (t.val % 4))) :
    k0_pay2 (F := Ideal) (xblk m c t) (wblk m c t) acc (ix2 p q)
      = Cert.Lin.pdot (xarr m c) (warr m c) r o (1024 * (t.val % 4 + 1)) := by
  rw [step_apply]
  exact Cert.Lin.pdot_step (xarr m c) (warr m c) r o (t.val % 4) (Nat.mod_lt _ (by decide)) _ hacc (xblk m c t) (wblk m c t) p q
    (fun l => xblk_apply m c t p l r _ hr rfl) (fun l => wblk_apply m c t q l o _ ho rfl)

/-- THE INVARIANT, by induction on the point: after point `n` = 16 i + 4 j + k the accumulator's entry (p, q) is the
    contraction of X's row 1024 i + p with W's row 1024 j + q over the first 1024 (k + 1) positions. -/
theorem acc_eq (c : Dev nD) : ∀ (n : ℕ) (h : n < cfg0.N) (p q : Fin 1024) (r : Fin 16384) (o : Fin 4096) (K : ℕ),
    r.val = 1024 * (n / 16) + p.val → o.val = 1024 * (n / 4 % 4) + q.val → K = 1024 * (n % 4 + 1) →
    (outsAt0 m c n h).2 (ix2 p q) = Cert.Lin.pdot (xarr m c) (warr m c) r o K := by
  intro n
  induction n with
  | zero =>
    intro h p q r o K hr ho hK
    subst hK
    rw [acc_open m c ⟨0, h⟩ rfl (show ¬(0 : ℕ) % 4 = 3 by decide)]
    exact step_at m c ⟨0, h⟩ _ p q r o hr ho ((cleared_apply _).trans (Cert.Lin.pdot_zero _ _ _ _).symm)
  | succ n ih =>
    intro h p q r o K hr ho hK
    subst hK
    have hN : n + 1 < 256 := lt_of_lt_of_eq h (show cfg0.N = 256 from N_0)
    by_cases h0 : (n + 1) % 4 = 0
    · have h1 : ¬(n + 1) % 4 = 3 := by omega
      rw [acc_open m c ⟨n + 1, h⟩ h0 h1]
      refine step_at m c ⟨n + 1, h⟩ _ p q r o hr ho ((cleared_apply _).trans ?_)
      show (0 : EReal) = Cert.Lin.pdot (xarr m c) (warr m c) r o (1024 * ((n + 1) % 4))
      rw [h0]
      exact (Cert.Lin.pdot_zero _ _ _ _).symm
    · have hprev : (outsAt0 m c (n + 1 - 1) (Nat.lt_of_le_of_lt (Nat.sub_le _ _) h)).2 (ix2 p q)
          = Cert.Lin.pdot (xarr m c) (warr m c) r o (1024 * ((n + 1) % 4)) :=
        ih (Nat.lt_of_succ_lt h) p q r o _ (by omega) (by omega) (by omega)
      by_cases h1 : (n + 1) % 4 = 3
      · rw [acc_close m c ⟨n + 1, h⟩ h0 h1]
        exact step_at m c ⟨n + 1, h⟩ _ p q r o hr ho hprev
      · rw [acc_inner m c ⟨n + 1, h⟩ h0 h1]
        exact step_at m c ⟨n + 1, h⟩ _ p q r o hr ho hprev

/-- WHAT A CLOSING POINT WRITES BACK: at k = 3 the output block's entry (p, q) is the whole contraction of X's row
    `r` with W's row `o`, plus the bias at `o`. -/
theorem out_entry (c : Dev nD) (t : Fin cfg0.N) (h1 : t.val % 4 = 3) (p q : Fin 1024) (r : Fin 16384) (o : Fin 4096)
    (hr : r.val = 1024 * (t.val / 16) + p.val) (ho : o.val = 1024 * (t.val / 4 % 4) + q.val) :
    (outsAt0 m c t.val t.isLt).1 (ix2 p q) = Cert.Lin.lin2 (xarr m c) (warr m c) (barr m c) (ix2 r o) := by
  have h0 : ¬t.val % 4 = 0 := by omega
  have hN : t.val < 256 := lt_of_lt_of_eq t.isLt (show cfg0.N = 256 from N_0)
  rw [out_close m c t h0 h1, out_apply]
  have hprev : (outsAt0 m c (t.val - 1) (Nat.lt_of_le_of_lt (Nat.sub_le _ _) t.isLt)).2 (ix2 p q)
      = Cert.Lin.pdot (xarr m c) (warr m c) r o (1024 * (t.val % 4)) :=
    acc_eq m c (t.val - 1) _ p q r o _ (by omega) (by omega) (by omega)
  rw [step_at m c t _ p q r o hr ho hprev, bblk_apply m c t q o ho]
  have e : 1024 * (t.val % 4 + 1) = 4096 := by omega
  rw [e, Cert.Lin.pdot_full]
  rfl

end Cert.KernelIdeal.Lin
end
-- ==== Proof.Flatten.lean ====
/-
  The three reshapes around the kernel change no entry.  x [8, 2048, 4096] is read as X [16384, 4096] with row
  2048 b + s, the bias [4096] as one row [1, 4096], and the [16384, 4096] result back as [8, 2048, 4096]: each keeps
  the row-major position, so the flattened-row result `lin2` of the reshaped arguments, reshaped back, is `lin` of the
  arguments.
-/
import proofs.«134308_j13597866459293_1_alg».proof.Proof.DotSplit
import Idealize.ShloMosaic.Lib.Pipeline.Value

noncomputable section

namespace Cert.Lin

open Idealize.ShloMosaic Idealize.ShloMosaic.ValueIdx

theorem lin2_reshaped (x : (⟨3, ![8, 2048, 4096]⟩ : Shape).Idx → EReal) (w : (⟨2, ![4096, 4096]⟩ : Shape).Idx → EReal)
    (bias : (⟨1, ![4096]⟩ : Shape).Idx → EReal)
    (hx : (⟨3, ![8, 2048, 4096]⟩ : Shape).ShapeCasts ⟨2, ![16384, 4096]⟩)
    (hb : (⟨1, ![4096]⟩ : Shape).ShapeCasts ⟨2, ![1, 4096]⟩)
    (ho : (⟨2, ![16384, 4096]⟩ : Shape).ShapeCasts ⟨3, ![8, 2048, 4096]⟩) :
    shapeCast ⟨3, ![8, 2048, 4096]⟩ (lin2 (shapeCast ⟨2, ![16384, 4096]⟩ x hx) w (shapeCast ⟨2, ![1, 4096]⟩ bias hb)) ho
      = lin x w bias := by
  funext i
  obtain ⟨b, s, o, rfl⟩ : ∃ (b : Fin 8) (s : Fin 2048) (o : Fin 4096), i = ix3 b s o := ⟨i 0, i 1, i 2, eq_ix3 i⟩
  have hb8 := b.isLt
  have hs := s.isLt
  have hrow : 2048 * b.val + s.val < 16384 := by omega
  rw [shapeCast_apply _ ho (ix3 b s o) (ix2 ⟨2048 * b.val + s.val, hrow⟩ o) (by
    rw [Shape.rowMajor_val_two, Shape.rowMajor_val_three]
    show (2048 * b.val + s.val) * 4096 + o.val = (b.val * 2048 + s.val) * 4096 + o.val
    omega)]
  unfold lin2 lin
  congr 1
  · refine Finset.sum_congr rfl fun d _ => ?_
    show shapeCast ⟨2, ![16384, 4096]⟩ x hx (ix2 ⟨2048 * b.val + s.val, hrow⟩ d) * w (ix2 o d) = x (ix3 b s d) * w (ix2 o d)
    rw [shapeCast_apply x hx (ix2 ⟨2048 * b.val + s.val, hrow⟩ d) (ix3 b s d) (by
      rw [Shape.rowMajor_val_two, Shape.rowMajor_val_three]
      show (b.val * 2048 + s.val) * 4096 + d.val = (2048 * b.val + s.val) * 4096 + d.val
      omega)]
  · show shapeCast ⟨2, ![1, 4096]⟩ bias hb (ix2 (0 : Fin 1) o) = bias (ix1 o)
    exact shapeCast_apply bias hb (ix2 (0 : Fin 1) o) (ix1 o) (by
      rw [Shape.rowMajor_val_one, Shape.rowMajor_val_two]
      show o.val = 0 * 4096 + o.val
      omega)

end Cert.Lin

end
-- ==== Proof.Final.lean ====
/-
  From the closing points' blocks to the result.  The output's block (i, j) is written back once, by the point
  (i, j, 3), and it is that block of ONE function of the whole arrays: entry (r, o) is the contraction of X's row r
  with w's row o plus the bias at o.  The sixty-four blocks tile the [16384, 4096] output (entry (r, o) lies in the
  block of run (r / 1024, o / 1024)), so the output array ends at that function.  Around the region X is the first
  argument reshaped, the bias row the third reshaped, and the result the output reshaped; none moves an entry's
  row-major position.
-/
import proofs.«134308_j13597866459293_1_alg».proof.Proof.Accum
import proofs.«134308_j13597866459293_1_alg».proof.Proof.Flatten
import Idealize.ShloMosaic.Lib.Pipeline.Value
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Lin
open Cert.KernelIdeal Cert.KernelIdeal.Gen

variable (m : (ℓ : Loc nD τ sig) → Buf (Elt Ideal) ℓ) (ρ : Dev nD → PrngReg)

/-! ## From the closing points' blocks to the [16384, 4096] array -/

/-- What a closing point writes back is its block of `lin2` of the arrays the region found. -/
theorem flushed_eq (c : Dev nD) (t : Fin cfg0.N) (hf : (cfg0.win 3).flush t = true) :
    (dats m 0 c).flushed 3 t
      = ((cfg0.win 3).blk t).view.read (Elt Ideal) (Cert.Lin.lin2 (xarr m c) (warr m c) (barr m c)) := by
  have h3 : t.val % 4 = 3 := (flush0_3 t).mp hf
  have hN : t.val < 256 := lt_of_lt_of_eq t.isLt (show cfg0.N = 256 from N_0)
  obtain ⟨-, -, -, -, -, -, e6, e7⟩ := idx_facts t
  show (cfg0.win 3).cut (grid0.coords t) ((dats m 0 c).after 3 t) = _
  rw [after0_3]
  refine funext fun (j : S1024x1024.Idx) => ?_
  obtain ⟨p, q, rfl⟩ : ∃ (p q : Fin 1024), j = ix2 p q := ⟨j 0, j 1, eq_ix2 j⟩
  have hp := p.isLt
  have hq := q.isLt
  show (outsAt0 m c t.val t.isLt).1 (ix2 p q)
    = Cert.Lin.lin2 (xarr m c) (warr m c) (barr m c) (((cfg0.win 3).blk t).view.emb (ix2 p q))
  rw [out_entry m c t h3 p q ⟨1024 * (t.val / 16) + p.val, by omega⟩ ⟨1024 * (t.val / 4 % 4) + q.val, by omega⟩ rfl rfl]
  refine congrArg (Cert.Lin.lin2 (xarr m c) (warr m c) (barr m c)) (funext fun a => Fin.ext ?_)
  match a with
  | ⟨0, _⟩ => show 1024 * (t.val / 16) + p.val = win0_3.index t (0 : Fin 2) * 1024 + 1 * p.val; rw [e6]; omega
  | ⟨1, _⟩ => show 1024 * (t.val / 4 % 4) + q.val = win0_3.index t (1 : Fin 2) * 1024 + 1 * q.val; rw [e7]; omega

/-- An entry of the array lies in point `t`'s output block iff each coordinate lies in the block's range. -/
theorem mem_out_blk (t : Fin cfg0.N) (i : S16384x4096.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- Every entry (r, o) is in the output block of the closing point of run (r / 1024, o / 1024). -/
theorem out_cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 256 := N_0
  obtain ⟨t, tv⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e6, e7⟩ := idx_facts t
  refine ⟨t, (flush0_3 t).mpr (by omega), ?_⟩
  rw [mem_out_blk]
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 1024 ≤ (i 1).val ∧ (i 1).val < win0_3.index t (1 : Fin 2) * 1024 + 1024
    rw [e7]; omega

/-- So the [16384, 4096] array ends at `lin2` of the arrays the region found. -/
theorem final_out (c : Dev nD) : (dats m 0 c).arrAt 3 cfg0.N = Cert.Lin.lin2 (xarr m c) (warr m c) (barr m c) :=
  (dats m 0 c).arrAt_eq_of_cover 3 (Cert.Lin.lin2 (xarr m c) (warr m c) (barr m c)) (flushed_eq m c) out_cover

/-! ## The reshapes before and after the region -/

/-- The region finds X as the reshape of the first argument, -/
theorem xarr_eq (c : Dev nD) :
    xarr m c = shapeCast S16384x4096 (m ((c : Thread nD τ).loc main_arg0)) shapeCasts_S8x2048x4096_S16384x4096 := by
  show StableHlo.after hostOps0 (fun b => m (c, b)) (Proc.devRef .tc main_v0) = _
  after_results
  rfl

/-- the bias row as the reshape of the third, -/
theorem barr_eq (c : Dev nD) :
    barr m c = shapeCast S1x4096 (m ((c : Thread nD τ).loc main_arg2)) shapeCasts_S4096_S1x4096 := by
  show StableHlo.after hostOps0 (fun b => m (c, b)) (Proc.devRef .tc main_v1) = _
  after_results
  rfl

/-- and W as the second argument itself. -/
theorem warr_eq (c : Dev nD) : warr m c = m ((c : Thread nD τ).loc main_arg1) := V_main_arg1 m c

/-- The result buffer after the last reshape. -/
theorem result_eq (c : Dev nD) :
    Pipeline.afterTail₀ cfgs (dats m) 0 (V0 m) [hostOps1] c main_v3
      = Cert.Lin.lin (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw := (Pipeline.withArrays_arr spec0 launch0.win.arr_inj c (V0 m c) (fun w => (dats m 0 c).arrAt w cfg0.N) 3).trans (final_out m c)
  refine Eq.trans (?_ : _ = shapeCast S8x2048x4096 (Cert.Lin.lin2 (xarr m c) (warr m c) (barr m c)) shapeCasts_S16384x4096_S8x2048x4096) ?_
  · exact congrArg (fun (v : S16384x4096.Idx → EReal) => shapeCast S8x2048x4096 v shapeCasts_S16384x4096_S8x2048x4096) hw
  · rw [xarr_eq, warr_eq, barr_eq]
    exact Cert.Lin.lin2_reshaped _ _ _ _ _ _

/-- THE RUN, READ: every weakly fair execution of the idealized kernel's @main ends with the result buffer at `lin` of
    the three arguments, which end as they began. -/
theorem run : θ_run defs (onTc (τ := τ) (main (F := Ideal))) ⟨m, fun _ => 0, ρ⟩ fun r => ∀ c : Dev nD,
      r.2.mem ((c.tc : Thread nD τ).loc main_v3)
        = Cert.Lin.lin (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Lin
end
-- ==== Proof.lean ====
/-
  A linear layer: out[b, s, o] = Σ_d x[b, s, d] · w[o, d] + bias[o], with x [8, 2048, 4096], w [4096, 4096] and
  bias [4096], computed two ways.

  The reference contracts the last axes of x and w in one product and adds the broadcast bias.

  The kernel flattens x to X [16384, 4096], lays the bias as one row, and walks a (16, 4, 4) grid (i, j, k) with k
  fastest.  At each point it multiplies X's [1024, 1024] block (i, k) by the transpose of w's block (j, k), after
  narrowing both to a 16-bit format, and adds the product into a [1024, 1024] accumulator that it clears at k = 0; at
  k = 3 it stores the accumulator plus the bias row's block (0, j) as output block (i, j).  The [16384, 4096] output
  is reshaped back to [8, 2048, 4096].

  On the extended reals the narrowing is the identity and a block product into a zero splat is the plain sum of
  products, so after point (i, j, k) the accumulator's entry (p, q) is the contraction of X's row 1024 i + p with w's
  row 1024 j + q over the first 1024 (k + 1) positions (induction on the point: a sum over a range of naturals splits
  at any point); at k = 3 that is the whole contraction.  Each closing point's output block is therefore its block
  of one function of the whole arrays, the blocks tile the output, and the three reshapes keep row-major positions:
  the kernel's result is the same function of the arguments as the reference's.  Only the commutative-monoid laws
  of + are used, so the entries' finiteness is never consulted.

  The idealization rewrote nothing (its ledger is empty), the two kernels' frames are the generated ones, and the
  reference's frame is its run with the result dropped.
-/
import proofs.«134308_j13597866459293_1_alg».proof.Defs
import proofs.«134308_j13597866459293_1_alg».proof.Proof.Gen.Kernel
import proofs.«134308_j13597866459293_1_alg».proof.Proof.Gen.Kernel.Skeleton
import proofs.«134308_j13597866459293_1_alg».proof.Proof.Gen.Kernel.Launch
import proofs.«134308_j13597866459293_1_alg».proof.Proof.Gen.Kernel.Points
import proofs.«134308_j13597866459293_1_alg».proof.Proof.Gen.Kernel.Frame
import proofs.«134308_j13597866459293_1_alg».proof.Proof.Gen.KernelIdeal
import proofs.«134308_j13597866459293_1_alg».proof.Proof.Gen.KernelIdeal.Skeleton
import proofs.«134308_j13597866459293_1_alg».proof.Proof.Gen.KernelIdeal.Launch
import proofs.«134308_j13597866459293_1_alg».proof.Proof.Gen.KernelIdeal.Points
import proofs.«134308_j13597866459293_1_alg».proof.Proof.Gen.KernelIdeal.Frame
import proofs.«134308_j13597866459293_1_alg».proof.Proof.Gen.ReferenceIdeal
import proofs.«134308_j13597866459293_1_alg».proof.Proof.Gen.ReferenceIdeal.Run
import proofs.«134308_j13597866459293_1_alg».proof.Proof.Gen.ReferenceIdeal.Read
import proofs.«134308_j13597866459293_1_alg».proof.Proof.Gen.Pre_finite_inputs
import proofs.«134308_j13597866459293_1_alg».proof.Proof.RefSide
import proofs.«134308_j13597866459293_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result buffer at `lin` of arguments that agree. -/
theorem algebraic : Cert.algebraic_KernelIdeal_ReferenceIdeal := by
  intro m ρ m' ρ' _ hagree
  refine ⟨fun c => Cert.Lin.lin (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Lin.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Lin.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
